-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 46
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x128, .f32⟩
  | .hbm, ⟨36, _⟩ => ⟨S_, .f32⟩
  | .hbm, ⟨37, _⟩ => ⟨S100000x128, .f32⟩
  | .hbm, ⟨38, _⟩ => ⟨S1700000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KernelGrid.lean ====
/-
  What the kernel's one region leaves in its output array, at the extended reals.

  The region walks the 100000 node rows in 20 blocks of 5000. At a block it multiplies the block's 5000 x 256 feature
  rows by the whole 256 x 128 weight matrix (the narrowing to bf16 before the product is the identity on the extended
  reals, and the product accumulates into zeros) and scales row p of the product by the block's p-th entry of a
  5000 x 1 column of node weights. Every block therefore writes back a block of ONE function of the three arrays,
      (r, j)  ↦  (∑ k, x (r, k) · W (k, j)) · dv (r, 0),
  and the 20 blocks tile the output, so after the run the output array is that function.
-/
import proofs.«400812_j30133490549252_3_alg».proof.Proof.Gen.KernelIdeal.Frame
import proofs.«400812_j30133490549252_3_alg».proof.Proof.LibContract
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The projected feature rows, row r scaled by the weight column's entry r. -/
def scaledRows (x : FVec Ideal S100000x256 .f32) (W : FVec Ideal S256x128 .f32) (dv : FVec Ideal S100000x1 .f32) :
    FVec Ideal S100000x128 .f32 :=
  fun i => (∑ k : Fin 256, x (ix2 ⟨(i 0).val, (i 0).isLt⟩ k) * W (ix2 k ⟨(i 1).val, (i 1).isLt⟩))
    * dv (ix2 ⟨(i 0).val, (i 0).isLt⟩ (0 : Fin 1))

/-- The same at an index given by its row and column numbers. -/
theorem scaledRows_apply (x : FVec Ideal S100000x256 .f32) (W : FVec Ideal S256x128 .f32) (dv : FVec Ideal S100000x1 .f32)
    (r : Fin 100000) (j : Fin 128) :
    scaledRows x W dv (ix2 r j) = (∑ k : Fin 256, x (ix2 r k) * W (ix2 k j)) * dv (ix2 r (0 : Fin 1)) := rfl

/-- The body's stored value at (p, q): row p of the block's features against column q of the weights, times the
    block's weight entry p. -/
theorem payload_apply (x0 : Vec Ideal S5000x256 .f32) (x1 : Vec Ideal S256x128 .f32) (x2 : Vec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  unfold k0_pay1
  show (matmul (F := Ideal) dot_S5000x256_S256x128_S5000x128_1_0_0_1_n_n none (truncf (F := Ideal) .bf16 x0 bitsLt_bf16_f32)
        (truncf (F := Ideal) .bf16 x1 bitsLt_bf16_f32) (constant (F := Ideal) S5000x128 .f32 0x00000000#32)) (ix2 p q)
      * (broadcastTo S5000x128 (shapeCast S5000x1 x2 shapeCasts_S5000x1_S5000x1) broadcasts_S5000x1_S5000x128) (ix2 p q) = _
  refine congrArg₂ (· * ·) ?_ ?_
  · exact (Cert.LibContract.matmul_plain dot_S5000x256_S256x128_S5000x128_1_0_0_1_n_n rfl rfl rfl rfl rfl rfl none
      (truncf (F := Ideal) .bf16 x0 bitsLt_bf16_f32) (truncf (F := Ideal) .bf16 x1 bitsLt_bf16_f32) p q).trans
      (Finset.sum_congr rfl fun k _ => rfl)
  · rw [shapeCast_self]
    exact broadcastTo_apply x2 broadcasts_S5000x1_S5000x128 (ix2 p q) (ix2 p (0 : Fin 1)) (fun a => match a with
      | ⟨0, _⟩ => by show p.val = if (5000 : ℕ) = 1 then 0 else p.val; rw [if_neg (by decide)]
      | ⟨1, _⟩ => by show (0 : ℕ) = if (1 : ℕ) = 1 then 0 else q.val; rw [if_pos rfl])

theorem hz : (![0, 0] : Fin 2 → Nat) = fun _ => 0 := funext fun a => by fin_cases a <;> rfl

/-- The index maps over the grid: the features' and the weight column's row blocks move with the output's, the
    weight matrix stays, no window moves along its columns, and there are 20 row blocks. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 19 :=
  (by decide +kernel : ∀ t : Fin grid0.N, _)

/-- Every row block is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

end Cert.KernelIdeal.Rows

end
-- ==== Proof.KernelBlock.lean ====
/-
  A grid point's three input blocks, read off three arrays: block t of a 100000 x 256 array is its rows
  5000 t … 5000 t + 4999, the 256 x 128 matrix's block is the whole matrix at every point, and block t of a
  100000 x 1 column is the same 5000 rows of the column. Stated for any three arrays.
-/
import proofs.«400812_j30133490549252_3_alg».proof.Proof.Gen.KernelIdeal.Frame
import proofs.«400812_j30133490549252_3_alg».proof.Proof.KernelGrid
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (X : FVec Ideal S100000x256 .f32) (W : FVec Ideal S256x128 .f32) (D : FVec Ideal S100000x1 .f32)

/-- A point's blocks of the three arrays. -/
abbrev xblk (t : Fin cfg0.N) : Vec Ideal S5000x256 .f32 := ((cfg0.win 0).blk t).view.read (Elt Ideal) X
abbrev wblk (t : Fin cfg0.N) : Vec Ideal S256x128 .f32 := ((cfg0.win 1).blk t).view.read (Elt Ideal) W
abbrev dblk (t : Fin cfg0.N) : Vec Ideal S5000x1 .f32 := ((cfg0.win 2).blk t).view.read (Elt Ideal) D

/-- Entry (p, k) of a point's feature block is the array at the block's row offset plus p. -/
theorem xblk_apply (t : Fin cfg0.N) (p : Fin 5000) (k : Fin 256) (r : Fin 100000)
    (hr : r.val = win0_3.index t (0 : Fin 2) * 5000 + p.val) :
    xblk X t (ix2 p k) = X (ix2 r k) := by
  obtain ⟨e0, e1, e2, e3, e4, e5, e6, e7⟩ := idx_facts t
  show X (((cfg0.win 0).blk t).view.emb (ix2 p k)) = X (ix2 r k)
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 256 + 1 * k.val = k.val; omega
  rw [h]

/-- A point's block of the matrix is the whole matrix. -/
theorem wblk_apply (t : Fin cfg0.N) (k : Fin 256) (q : Fin 128) :
    wblk W t (ix2 k q) = W (ix2 k q) := by
  obtain ⟨e0, e1, e2, e3, e4, e5, e6, e7⟩ := idx_facts t
  show W (((cfg0.win 1).blk t).view.emb (ix2 k q)) = W (ix2 k q)
  have h : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  rw [h]

/-- Entry p of a point's block of the column is the column at the block's row offset plus p. -/
theorem dblk_apply (t : Fin cfg0.N) (p : Fin 5000) (r : Fin 100000)
    (hr : r.val = win0_3.index t (0 : Fin 2) * 5000 + p.val) :
    dblk D t (ix2 p (0 : Fin 1)) = D (ix2 r (0 : Fin 1)) := by
  obtain ⟨e0, e1, e2, e3, e4, e5, e6, e7⟩ := idx_facts t
  show D (((cfg0.win 2).blk t).view.emb (ix2 p (0 : Fin 1))) = D (ix2 r (0 : Fin 1))
  have h : ((cfg0.win 2).blk t).view.emb (ix2 p (0 : Fin 1)) = ix2 r (0 : Fin 1) := by
    funext a; apply Fin.ext
    match a with
    | ⟨0, _⟩ => show win0_2.index t (0 : Fin 2) * 5000 + 1 * p.val = r.val; omega
    | ⟨1, _⟩ => show win0_2.index t (1 : Fin 2) * 1 + 1 * 0 = 0; omega
  rw [h]

end Cert.KernelIdeal.Rows

end
-- ==== Proof.KernelArray.lean ====
/-
  The output array after the region. At a point the body stores row p of the block's features against the weight
  matrix, times the block's weight entry p; through the block reads that is a block of the scaled rows of the whole
  arrays (for any three arrays), and the 20 row blocks tile the output, so the output array after the run is the
  scaled rows of the arrays the region finds.
-/
import proofs.«400812_j30133490549252_3_alg».proof.Proof.Gen.KernelIdeal.Frame
import proofs.«400812_j30133490549252_3_alg».proof.Proof.KernelBlock
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

section Generic
variable (X : FVec Ideal S100000x256 .f32) (W : FVec Ideal S256x128 .f32) (D : FVec Ideal S100000x1 .f32)

/-- What the body leaves in the output's staging buffer at point t, from the point's blocks of any three arrays, is
    block t of the scaled rows of those arrays. -/
theorem block_eq (t : Fin cfg0.N) :
    (cfg0.win 3).cut (grid0.coords t) (out0_3 (F := Ideal) (xblk X t) (wblk W t) (dblk D t))
      = ((cfg0.win 3).blk t).view.read (Elt Ideal) (scaledRows X W D) := by
  unfold out0_3
  rw [View.canon_unit_zero hz]
  simp only [View.ld_unit_zero (S := S5000x256) hz, View.ld_unit_zero (S := S256x128) hz,
    View.ld_unit_zero (S := S5000x1) hz]
  obtain ⟨e0, e1, e2, e3, e4, e5, e6, e7⟩ := idx_facts t
  funext y
  obtain ⟨p, q, rfl⟩ : ∃ (p : Fin 5000) (q : Fin 128), y = ix2 p q := ⟨y 0, y 1, eq_ix2 y⟩
  have hp := p.isLt
  let r : Fin 100000 := ⟨win0_3.index t (0 : Fin 2) * 5000 + p.val, by omega⟩
  have hemb : ((cfg0.win 3).blk t).view.emb (ix2 p q) = ix2 r q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  show k0_pay1 (F := Ideal) (xblk X t) (wblk W t) (dblk D t) (ix2 p q)
    = scaledRows X W D (((cfg0.win 3).blk t).view.emb (ix2 p q))
  rw [hemb, scaledRows_apply, payload_apply]
  refine congrArg₂ (· * ·) (Finset.sum_congr rfl fun k _ => ?_) (dblk_apply D t p r rfl)
  exact congrArg₂ (· * ·) (xblk_apply X t p k r rfl) (wblk_apply W t k q)

end Generic

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The blocks tile the output: row i₀ is in row block i₀ / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

variable (m : (ℓ : Loc nD τ sig) → Buf (Elt Ideal) ℓ)

/-- WHAT POINT t WRITES BACK is block t of the scaled rows of the three arrays as the region finds them. -/
theorem flushed_eq (c : Dev nD) (t : Fin cfg0.N) :
    (dats (F := Ideal) m 0 c).flushed 3 t
      = ((cfg0.win 3).blk t).view.read (Elt Ideal)
          (scaledRows (V m c (Pipeline.arrRef spec0 0)) (V m c (Pipeline.arrRef spec0 1)) (V m c (Pipeline.arrRef spec0 2))) := by
  show (cfg0.win 3).cut (grid0.coords t) ((dats m 0 c).after 3 t) = _
  rw [after0_3]
  exact block_eq (V m c (Pipeline.arrRef spec0 0)) (V m c (Pipeline.arrRef spec0 1)) (V m c (Pipeline.arrRef spec0 2)) t

/-- THE OUTPUT ARRAY after the run: the scaled rows of the three arrays as the region finds them. -/
theorem final3 (c : Dev nD) :
    (dats (F := Ideal) m 0 c).arrAt 3 cfg0.N
      = scaledRows (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Rows

end
-- ==== Proof.KernelHost.lean ====
/-
  The kernel's program around its one region, read as values.

  Before the region the host lines build, from the 2 x 1600000 edge list alone: the source and destination words
  (a row of the list followed by every node number once, the self loops), each node's degree (a one for every edge that
  ends at it, added into zeros), each node's weight (the reciprocal square root of a positive degree, zero otherwise)
  and the weights again as a 100000 x 1 column, which is what the region reads.
  After the region they gather the region's output rows at the sources, add them up per destination, scale each row by
  its node's weight and add the bias.  So the program's result is ONE function, the aggregate below, of the region's
  output, the words, the weights and the bias; and the region's output is the scaled rows of the features, the weight
  matrix and the weight column.
-/
import proofs.«400812_j30133490549252_3_alg».proof.Proof.Gen.KernelIdeal.Frame
import proofs.«400812_j30133490549252_3_alg».proof.Proof.KernelArray
import Idealize.ShloMosaic.Lib.StableHlo.Run
import Idealize.ShloMosaic.Lib.Pipeline.Value

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The edges' source words: row 0 of the edge list, then every node once (its self loop). -/
def srcWords (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The edges' destination words: row 1 of the edge list, then every node once. -/
def dstWords (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A node's degree: one for every edge that ends at it, added into zeros. -/
def degrees (ei : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstWords ei))
    (broadcastInDim S1700000 ![] bcast_S_S1700000 (constant S_ .f32 0x3F800000#32))

/-- A node's weight: the reciprocal square root of its degree where that is positive, zero elsewhere. -/
def weights (ei : IVec S2x1600000 32) : FVec F S100000 .f32 :=
  select (cmpf .ogt (degrees (F := F) ei) (broadcastInDim S100000 ![] bcast_S_S100000 (constant S_ .f32 0x00000000#32)))
    (Host.rsqrt (degrees (F := F) ei))
    (broadcastInDim S100000 ![] bcast_S_S100000 (id (constant S_ .f32 0x00000000#32)))

/-- The weights as the 100000 x 1 column the region reads. -/
def weightCol (ei : IVec S2x1600000 32) : FVec F S100000x1 .f32 :=
  shapeCast S100000x1 (weights (F := F) ei) shapeCasts_S100000_S100000x1

/-- jnp's wrap of the index words, as the [E, 1] column a gather takes. -/
abbrev wrapCol (x : IVec S1700000 32) : IVec S1700000x1 32 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The lines after the region, as one function of the region's output hs, the edge words, the weights and the bias:
    gather the rows of hs at the sources, add them up per destination into zeros, scale row v by its weight, add the
    bias. -/
def aggregate (hs : FVec F S100000x128 .f32) (s d : IVec S1700000 32) (w : FVec F S100000 .f32) (b : FVec F S128 .f32) :
    FVec F S100000x128 .f32 :=
  addf
    (mulf
      (broadcastInDim S100000x128 ![0, 1] bcast_S100000x1_S100000x128_0_1 (broadcastInDim S100000x1 ![0] bcast_S100000_S100000x1_0 w))
      (Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 d)
        (Host.gather gather_S100000x128_S1700000x1_S1700000x128_1_0_n_n_0_1_1128 hs (wrapCol s))))
    (broadcastInDim S100000x128 ![0, 1] bcast_S1x128_S100000x128_0_1 (broadcastInDim S1x128 ![1] bcast_S128_S1x128_1 b))

variable (m : (ℓ : Loc nD τ sig) → Buf (Elt F) ℓ)

/-- The host lines before the region, stretch by stretch. -/
theorem V0_split (c : Dev nD) :
    V0 m c = StableHlo.after hostOps0_2 (StableHlo.after hostOps0_1 (StableHlo.after hostOps0 (fun b => m (c, b)))) := by
  show StableHlo.after (List.flatten [hostOps0, hostOps0_1, hostOps0_2]) _ = _
  rw [List.flatten_cons, List.flatten_cons, List.flatten_cons, List.flatten_nil, List.append_nil,
    StableHlo.after_append, StableHlo.after_append]

set_option maxHeartbeats 4000000 in
/-- The region is entered with the source words in their buffer, -/
theorem V_src (c : Dev nD) : V m c main_v3 = srcWords (m ((c : Thread nD τ).loc main_arg1)) := by
  show V0 m c (Proc.devRef .tc main_v3) = _
  rw [V0_split]
  after_results
  rfl

set_option maxHeartbeats 4000000 in
/-- the destination words in theirs, -/
theorem V_dst (c : Dev nD) : V m c main_v6 = dstWords (m ((c : Thread nD τ).loc main_arg1)) := by
  show V0 m c (Proc.devRef .tc main_v6) = _
  rw [V0_split]
  after_results
  rfl

set_option maxHeartbeats 4000000 in
/-- the node weights in theirs, -/
theorem V_weights (c : Dev nD) : V m c main_v14 = weights (F := F) (m ((c : Thread nD τ).loc main_arg1)) := by
  show V0 m c (Proc.devRef .tc main_v14) = _
  rw [V0_split]
  after_results
  rfl

set_option maxHeartbeats 4000000 in
/-- and the weight column the region's third window stages. -/
theorem V_weightCol (c : Dev nD) :
    V m c (Pipeline.arrRef spec0 2) = weightCol (F := F) (m ((c : Thread nD τ).loc main_arg1)) := by
  show V0 m c (Proc.devRef .tc main_v15) = _
  rw [V0_split]
  after_results
  rfl

set_option maxHeartbeats 4000000 in
/-- THE LINES AFTER THE REGION: the program's result buffer ends at the aggregate of the region's output array and of
    the words, weights and bias as the region found them. -/
theorem tail_value (c : Dev nD) :
    Pipeline.afterTail₀ cfgs (dats m) 0 (V0 m) [hostOps1] c main_v32
      = aggregate ((dats m 0 c).arrAt 3 cfg0.N) (V m c main_v3) (V m c main_v6) (V m c main_v14) (V m c main_arg3) := by
  unfold Pipeline.afterTail₀
  rw [List.flatten_cons, List.flatten_nil, List.append_nil]
  after_results
  have e16 : Pipeline.withArrays (cfgs 0).spec c (V0 m c) (fun w => (dats m 0 c).arrAt w (cfgs 0).N)
      (Proc.devRef .tc main_v16) = (dats m 0 c).arrAt 3 cfg0.N :=
    Pipeline.withArrays_arr spec0 launch0.win.arr_inj c (V0 m c) _ 3
  have e3 : Pipeline.withArrays (cfgs 0).spec c (V0 m c) (fun w => (dats m 0 c).arrAt w (cfgs 0).N)
      (Proc.devRef .tc main_v3) = V0 m c (Proc.devRef .tc main_v3) :=
    Pipeline.withArrays_of_ne _ c (V0 m c) _ main_v3 (by exact (by decide : ∀ w, Pipeline.arrRef spec0 w ≠ main_v3))
  have e6 : Pipeline.withArrays (cfgs 0).spec c (V0 m c) (fun w => (dats m 0 c).arrAt w (cfgs 0).N)
      (Proc.devRef .tc main_v6) = V0 m c (Proc.devRef .tc main_v6) :=
    Pipeline.withArrays_of_ne _ c (V0 m c) _ main_v6 (by exact (by decide : ∀ w, Pipeline.arrRef spec0 w ≠ main_v6))
  have e14 : Pipeline.withArrays (cfgs 0).spec c (V0 m c) (fun w => (dats m 0 c).arrAt w (cfgs 0).N)
      (Proc.devRef .tc main_v14) = V0 m c (Proc.devRef .tc main_v14) :=
    Pipeline.withArrays_of_ne _ c (V0 m c) _ main_v14 (by exact (by decide : ∀ w, Pipeline.arrRef spec0 w ≠ main_v14))
  have ea : Pipeline.withArrays (cfgs 0).spec c (V0 m c) (fun w => (dats m 0 c).arrAt w (cfgs 0).N)
      (Proc.devRef .tc main_arg3) = V0 m c (Proc.devRef .tc main_arg3) :=
    Pipeline.withArrays_of_ne _ c (V0 m c) _ main_arg3 (by exact (by decide : ∀ w, Pipeline.arrRef spec0 w ≠ main_arg3))
  rw [e16, e3, e6, e14, ea]
  rfl

end Cert.KernelIdeal.Host

end
-- ==== Proof.KernelRun.lean ====
/-
  The kernel program's run on the extended reals, with its result named: every weakly fair execution ends with the
  result buffer at the aggregate of the scaled rows of x · W (the weights built from the edge list) and with the four
  argument arrays unchanged.
-/
import proofs.«400812_j30133490549252_3_alg».proof.Proof.KernelHost

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result as a function of the four inputs. -/
abbrev resultOf (x : FVec Ideal S100000x256 .f32) (ei : IVec S2x1600000 32) (W : FVec Ideal S256x128 .f32)
    (b : FVec Ideal S128 .f32) : FVec Ideal S100000x128 .f32 :=
  aggregate (F := Ideal) (Rows.scaledRows x W (weightCol (F := Ideal) ei)) (srcWords ei) (dstWords ei)
    (weights (F := Ideal) ei) b

/-- What the lines after the region leave in the result buffer, in terms of the launch contents. -/
theorem result_value (c : Dev nD) :
    Pipeline.afterTail₀ cfgs (dats m) 0 (V0 m) [hostOps1] c main_v32
      = resultOf (m ((c : Thread nD τ).loc main_arg0)) (m ((c : Thread nD τ).loc main_arg1))
          (m ((c : Thread nD τ).loc main_arg2)) (m ((c : Thread nD τ).loc main_arg3)) := by
  have e0 : V m c (Pipeline.arrRef spec0 0) = m ((c : Thread nD τ).loc main_arg0) := V_main_arg0 m c
  have e1 : V m c (Pipeline.arrRef spec0 1) = m ((c : Thread nD τ).loc main_arg2) := V_main_arg2 m c
  rw [tail_value, Rows.final3, V_src, V_dst, V_weights, V_weightCol, V_main_arg3, e0, e1]

/-- THE RUN, read: the result at its function of the inputs, the inputs unchanged. -/
theorem run_value : θ_run defs (onTc (τ := τ) (main (F := Ideal))) ⟨m, fun _ => 0, ρ⟩ (fun r => ∀ c : Dev nD,
      r.2.mem ((c.tc : Thread nD τ).loc main_v32)
        = resultOf (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v32 (Pipeline.mem_restRefs_of main_v32 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Host

end
-- ==== Proof.LibGather.lean ====
/-
  The host's gather that selects columns of a matrix by a table of positions, read at an index.
-/
import Idealize.ShloMosaic.PureOps
import Idealize.ShloMosaic.Lib.ValueIdx

noncomputable section

namespace Cert.LibGather

open Idealize.ShloMosaic Idealize.ShloMosaic.ValueIdx

/-- An entry of a one-element list is that element, whatever the position. -/
theorem getElem_of_eq_singleton {β : Type} {l : List β} {x : β} (hl : l = [x]) (k : Nat) (hk : k < l.length) :
    l[k]'hk = x := by
  subst hl
  have hk0 : k = 0 := by simpa using hk
  subst hk0
  rfl

/-- SELECTING COLUMNS. A gather over a [B, N] matrix whose start indices are an [A, 1] column of positions, the
    rows kept whole (axis 0 an offset axis of slice size B) and axis 1 collapsed and start-indexed: entry (r, a)
    is the matrix at row r and the column position a's start index names, read signed and clamped into
    `[0, N - 1]`. -/
theorem gather_cols {α : Type} {B N A w : ℕ} (d : GatherDims ⟨2, ![B, N]⟩ ⟨2, ![A, 1]⟩ ⟨2, ![B, A]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (x : (⟨2, ![B, N]⟩ : Shape).Idx → α) (idx : IVec ⟨2, ![A, 1]⟩ w) (r : Fin B) (a : Fin A) (hN : 0 < N) :
    Host.gather d x idx (ix2 r a)
      = x (ix2 r ⟨min (idx (ix2 a (0 : Fin 1))).toInt.toNat (N - 1), by omega⟩) := by
  -- the axes kept on each side: the operand's one offset axis is 0, the result's one batch axis is 1
  have hsK : d.sKept = [0] := by
    show (List.finRange 2).filter (· ∉ d.collapsedSliceDims ++ d.operandBatchingDims) = [0]
    rw [hcoll, hob]; rfl
  have hbD : d.batchDims = [1] := by
    show (List.finRange 2).filter (· ∉ d.offsetDims) = [1]
    rw [hoff]; rfl
  have hlen : d.startIndexMap.length = 1 := by rw [hsim]; rfl
  -- the start-index entry result position (r, a) reads is row a of the column of positions
  have hsi : ∀ c, d.siIdx (ix2 r a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, the offset axis: no start index, no batch coordinate, the result's row
    have hb : (⟨0, h0⟩ : Fin 2) ∉ d.operandBatchingDims := by rw [hob]; exact List.not_mem_nil
    have hm : (⟨0, h0⟩ : Fin 2) ∉ d.startIndexMap := by
      rw [hsim, List.mem_singleton]; intro e; exact Nat.zero_ne_one (congrArg Fin.val e)
    have hk : (⟨0, h0⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl
  | ⟨1, h1⟩ =>
    -- axis 1, collapsed and start-indexed: the clamped start index alone
    have hb : (⟨1, h1⟩ : Fin 2) ∉ d.operandBatchingDims := by rw [hob]; exact List.not_mem_nil
    have hk : (⟨1, h1⟩ : Fin 2) ∉ d.sKept := by
      rw [hsK, List.mem_singleton]; intro e; exact Nat.one_ne_zero (congrArg Fin.val e)
    have hm : (⟨1, h1⟩ : Fin 2) ∈ d.startIndexMap := by rw [hsim]; exact List.mem_singleton.mpr rfl
    have hsl : d.sliceSizes ⟨1, h1⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

end Cert.LibGather

end
-- ==== Proof.LibScatterSum.lean ====
/-
  A scatter that adds, read at an index.

  `Host.scatter` folds over the update indices in row-major order; each update either lands at one
  operand index (`ScatterDims.resultIdx?` is `some`) and is combined with what is there, or is
  dropped. When the combining operation is the addition of a commutative monoid the order does
  not matter, and the result at an operand index is the operand's element plus the sum of the
  updates that land at that index.
-/
import Idealize.ShloMosaic.PureOps.ShapeOps
import Mathlib.Algebra.BigOperators.Group.Finset.Basic
import Mathlib.Algebra.BigOperators.Fin

noncomputable section

namespace Idealize.ShloMosaic

/-- The scatter's fold over ANY list of update indices, from any start: at an operand index it leaves the
    start's element plus the list sum of the updates that land there. -/
theorem Host.scatter_foldl_add_apply {α : Type} [AddCommMonoid α] {s si u : Shape} {w : Nat} (d : ScatterDims s si u)
    (idx : IVec si w) (upd : u.Idx → α) (i : s.Idx) (L : List u.Idx) (r₀ : s.Idx → α) :
    (L.foldl (fun r n =>
        match d.resultIdx? n idx with
        | some i => fun i' => if i' = i then r i + upd n else r i'
        | none => r) r₀) i
      = r₀ i + (L.map fun n => if d.resultIdx? n idx = some i then upd n else 0).sum := by
  induction L generalizing r₀ with
  | nil => simp
  | cons n L ih =>
    rw [List.foldl_cons, ih, List.map_cons, List.sum_cons, ← add_assoc]
    congr 1
    cases h : d.resultIdx? n idx with
    | none => simp
    | some k =>
      by_cases hk : i = k
      · subst hk; simp
      · have hk' : ¬ k = i := fun e => hk e.symm
        simp [hk, hk']

/-- A scatter whose body is the addition of a commutative monoid leaves, at every operand index, the
    operand's element plus the sum of the updates whose result index is that index. -/
theorem Host.scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ n : u.Idx, if d.resultIdx? n idx = some i then upd n else 0 := by
  have h := Host.scatter_foldl_add_apply d idx upd i ((List.finRange u.numel).map u.rowMajor.symm) x
  rw [List.foldl_map, List.map_map] at h
  rw [← Equiv.sum_comp u.rowMajor.symm, Fin.sum_univ_def]
  exact h

end Idealize.ShloMosaic

end
-- ==== Proof.LibIndexOps.lean ====
/-
  The host's index operations read at an index. A gather whose start indices are a column of row numbers reads, at
  each result position, the operand's row (or entry) that the position's start index names, the index read signed and
  clamped into the table. An adding scatter whose indices are a column of row numbers leaves, at each row (or entry)
  of the operand, what was there plus the sum of the updates whose index, read signed and NOT clamped, is that row's
  number; an update whose index is no row number is dropped.
-/
import Idealize.ShloMosaic.PureOps
import Idealize.ShloMosaic.Lib.ValueIdx
import Idealize.ShloMosaic.Lib.ValueIdxRank1
import Mathlib.Data.BitVec
import proofs.«400812_j30133490549252_3_alg».proof.Proof.LibGather
import proofs.«400812_j30133490549252_3_alg».proof.Proof.LibScatterSum

noncomputable section

namespace GCN.Ops

open Idealize.ShloMosaic Idealize.ShloMosaic.ValueIdx Cert.LibGather
open scoped BigOperators

/-! ## Gathers -/

/-- SELECTING ROWS. A gather over an [N, D] table whose start indices are an [A, 1] column of row numbers, axis 0
    collapsed and start-indexed, the rows kept whole (axis 1 an offset axis): entry (a, f) is the table at column f
    of the row that position a's start index names, read signed and clamped into [0, N - 1]. -/
theorem gather_rows {α : Type} {N D A w : ℕ} (d : GatherDims ⟨2, ![N, D]⟩ ⟨2, ![A, 1]⟩ ⟨2, ![A, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![A, 1]⟩ w) (a : Fin A) (f : Fin D) (hN : 0 < N) :
    Host.gather d x idx (ix2 a f)
      = x (ix2 ⟨min (idx (ix2 a (0 : Fin 1))).toInt.toNat (N - 1), by omega⟩ f) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (a, f) reads is row a of the column of row numbers
  have hsi : ∀ c, d.siIdx (ix2 a f) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

/-- SELECTING ENTRIES. A gather over a flat array of N entries whose start indices are an [A, 1] column of
    positions, the one axis collapsed and start-indexed: entry a is the array at the position a's start index names,
    read signed and clamped into [0, N - 1]. -/
theorem gather_vec {α : Type} {N A w : ℕ} (d : GatherDims ⟨1, ![N]⟩ ⟨2, ![A, 1]⟩ ⟨1, ![A]⟩)
    (hoff : d.offsetDims = []) (hcoll : d.collapsedSliceDims = [0]) (hob : d.operandBatchingDims = [])
    (hsb : d.startIndicesBatchingDims = []) (hsim : d.startIndexMap = [0]) (hivd : d.indexVectorDim = 1)
    (x : (⟨1, ![N]⟩ : Shape).Idx → α) (idx : IVec ⟨2, ![A, 1]⟩ w) (a : Fin A) (hN : 0 < N) :
    Host.gather d x idx (ix1 a)
      = x (ix1 ⟨min (idx (ix2 a (0 : Fin 1))).toInt.toNat (N - 1), by omega⟩) := by
  have hbD : d.batchDims = [0] := by
    show (List.finRange 1).filter (· ∉ d.offsetDims) = [0]
    rw [hoff]; rfl
  have hlen : d.startIndexMap.length = 1 := by rw [hsim]; rfl
  have hsi : ∀ c, d.siIdx (ix1 a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    have hb : (⟨0, h0⟩ : Fin 1) ∉ d.operandBatchingDims := by rw [hob]; exact List.not_mem_nil
    have hk : (⟨0, h0⟩ : Fin 1) ∉ d.sKept := fun h =>
      ((d.mem_sKept _).1 h).1 (by rw [hcoll]; exact List.mem_singleton.mpr rfl)
    have hm : (⟨0, h0⟩ : Fin 1) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

/-! ## Adding scatters -/

/-- An update lands at an operand index exactly when, on every axis, its start (read signed, not clamped) plus its
    window coordinate is that index's coordinate. -/
theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have h1 := congrArg Fin.val (congrFun e a)
      have h2 := h a
      simp only at h1
      omega
    · intro e
      funext a
      apply Fin.ext
      have h1 := e a
      have h2 := h a
      show (d.start j idx a + (d.window j a : ℤ)).toNat = (i a).val
      omega
  · rename_i h
    constructor
    · intro e
      exact absurd e (by simp)
    · intro e
      exfalso
      apply h
      intro a
      have h1 := e a
      have h2 := (i a).isLt
      omega

/-- A ROW scatter: operand [N, D], indices an [A, 1] column of row numbers, updates [A, D], axis 0 inserted and
    scattered, axis 1 the window. Update (a, f') lands at (v, f) exactly when its index, read signed, is v and
    f' = f. -/
theorem scatter_rows_resultIdx {N D A w : ℕ} (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (idx : IVec ⟨2, ![A, 1]⟩ w) (a : Fin A) (f' : Fin D) (v : Fin N) (f : Fin D) :
    d.resultIdx? (ix2 a f') idx = some (ix2 v f) ↔ (idx (ix2 a (0 : Fin 1))).toInt = (v : ℤ) ∧ f' = f := by
  have hsK : d.sKept = [1] := by
    show (List.finRange 2).filter (· ∉ d.insertedWindowDims) = [1]
    rw [hiw]; rfl
  have huS : d.uScatter = [0] := by
    show (List.finRange 2).filter (· ∉ d.updateWindowDims) = [0]
    rw [huw]; rfl
  have hlen : d.scatterDimsToOperandDims.length = 1 := by rw [hsd]; rfl
  -- the index entry update (a, f') reads is row a of the column of row numbers
  have hsi : ∀ c, d.siIdx (ix2 a f') c = ix2 a (0 : Fin 1) := by
    intro c
    funext b
    match b with
    | ⟨0, _⟩ =>
      unfold ScatterDims.siIdx
      rw [dif_neg (by rw [hivd]; simp)]
      unfold ScatterDims.siCoord
      apply Fin.ext
      simp only [Fin.val_cast]
      rw [getElem_of_eq_singleton huS]
      rfl
    | ⟨1, _⟩ =>
      unfold ScatterDims.siIdx
      rw [dif_pos (by rw [hivd])]
      apply Fin.ext
      show c.val = 0
      have := c.isLt
      omega
  have hs0 : d.start (ix2 a f') idx 0 = (idx (ix2 a (0 : Fin 1))).toInt := by
    have hm : (0 : Fin 2) ∈ d.scatterDimsToOperandDims := by rw [hsd]; exact List.mem_singleton.mpr rfl
    unfold ScatterDims.start
    rw [dif_pos hm, hsi]
  have hs1 : d.start (ix2 a f') idx 1 = 0 := by
    have hm : (1 : Fin 2) ∉ d.scatterDimsToOperandDims := by
      rw [hsd, List.mem_singleton]; intro e; exact Nat.one_ne_zero (congrArg Fin.val e)
    unfold ScatterDims.start
    rw [dif_neg hm]
  have hw0 : d.window (ix2 a f') 0 = 0 := by
    have hk : (0 : Fin 2) ∉ d.sKept := by
      rw [hsK, List.mem_singleton]; intro e; exact Nat.zero_ne_one (congrArg Fin.val e)
    unfold ScatterDims.window
    rw [dif_neg hk]
  have hw1 : d.window (ix2 a f') 1 = f'.val := by
    have hk : (1 : Fin 2) ∈ d.sKept := by rw [hsK]; exact List.mem_singleton.mpr rfl
    unfold ScatterDims.window
    rw [dif_pos hk, getElem_of_eq_singleton huw]
    rfl
  rw [resultIdx?_eq_some_iff, Fin.forall_fin_two, hs0, hs1, hw0, hw1]
  show (idx (ix2 a (0 : Fin 1))).toInt + ((0 : ℕ) : ℤ) = (v.val : ℤ) ∧ (0 : ℤ) + (f'.val : ℤ) = (f.val : ℤ) ↔ _
  rw [Fin.ext_iff]
  omega

/-- An ENTRY scatter: operand a flat array of N entries, indices an [A, 1] column of positions, updates a flat array
    of A entries, the one axis inserted and scattered. Update a lands at v exactly when its index, read signed, is v. -/
theorem scatter_vec_resultIdx {N A w : ℕ} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (idx : IVec ⟨2, ![A, 1]⟩ w) (a : Fin A) (v : Fin N) :
    d.resultIdx? (ix1 a) idx = some (ix1 v) ↔ (idx (ix2 a (0 : Fin 1))).toInt = (v : ℤ) := by
  have huS : d.uScatter = [0] := by
    show (List.finRange 1).filter (· ∉ d.updateWindowDims) = [0]
    rw [huw]; rfl
  have hlen : d.scatterDimsToOperandDims.length = 1 := by rw [hsd]; rfl
  have hsi : ∀ c, d.siIdx (ix1 a) c = ix2 a (0 : Fin 1) := by
    intro c
    funext b
    match b with
    | ⟨0, _⟩ =>
      unfold ScatterDims.siIdx
      rw [dif_neg (by rw [hivd]; simp)]
      unfold ScatterDims.siCoord
      apply Fin.ext
      simp only [Fin.val_cast]
      rw [getElem_of_eq_singleton huS]
      rfl
    | ⟨1, _⟩ =>
      unfold ScatterDims.siIdx
      rw [dif_pos (by rw [hivd])]
      apply Fin.ext
      show c.val = 0
      have := c.isLt
      omega
  have hs0 : d.start (ix1 a) idx 0 = (idx (ix2 a (0 : Fin 1))).toInt := by
    have hm : (0 : Fin 1) ∈ d.scatterDimsToOperandDims := by rw [hsd]; exact List.mem_singleton.mpr rfl
    unfold ScatterDims.start
    rw [dif_pos hm, hsi]
  have hw0 : d.window (ix1 a) 0 = 0 := by
    have hk : (0 : Fin 1) ∉ d.sKept := by
      show (0 : Fin 1) ∉ (List.finRange 1).filter (· ∉ d.insertedWindowDims)
      intro h
      have h2 : (0 : Fin 1) ∉ d.insertedWindowDims := of_decide_eq_true (List.mem_filter.1 h).2
      rw [hiw] at h2
      exact h2 (List.mem_singleton.mpr rfl)
    unfold ScatterDims.window
    rw [dif_neg hk]
  rw [resultIdx?_eq_some_iff, Fin.forall_fin_one, hs0, hw0]
  show (idx (ix2 a (0 : Fin 1))).toInt + ((0 : ℕ) : ℤ) = (v.val : ℤ) ↔ _
  omega

/-- A sum over a flat array's indices is the sum over its positions. -/
theorem sum_idx1 {M : Type} [AddCommMonoid M] {n : ℕ} (g : (⟨1, ![n]⟩ : Shape).Idx → M) :
    ∑ i, g i = ∑ a : Fin n, g (ix1 a) :=
  (Equiv.sum_comp (idxEquiv1 (n := n)).symm g).symm

/-- The updates of a row scatter that land at (v, f), summed: over the positions whose index is v, the update's
    column f. -/
theorem sum_rows_landing {M : Type} [AddCommMonoid M] {N D A w : ℕ}
    (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (idx : IVec ⟨2, ![A, 1]⟩ w) (u : (⟨2, ![A, D]⟩ : Shape).Idx → M)
    (v : Fin N) (f : Fin D) :
    (∑ n : (⟨2, ![A, D]⟩ : Shape).Idx, if d.resultIdx? n idx = some (ix2 v f) then u n else 0)
      = ∑ a : Fin A, if (idx (ix2 a (0 : Fin 1))).toInt = (v : ℤ) then u (ix2 a f) else 0 := by
  rw [sum_idx2]
  refine Finset.sum_congr rfl fun a _ => ?_
  simp only [scatter_rows_resultIdx d huw hiw hsd hivd]
  by_cases hz : (idx (ix2 a (0 : Fin 1))).toInt = (v : ℤ)
  · simp only [hz, true_and, if_true]
    rw [Finset.sum_ite_eq' Finset.univ f (fun f' => u (ix2 a f'))]
    simp only [Finset.mem_univ, if_true]
  · simp only [hz, false_and, if_false, Finset.sum_const_zero]

/-- The updates of an entry scatter that land at v, summed: over the positions whose index is v. -/
theorem sum_vec_landing {M : Type} [AddCommMonoid M] {N A w : ℕ}
    (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (idx : IVec ⟨2, ![A, 1]⟩ w) (u : (⟨1, ![A]⟩ : Shape).Idx → M) (v : Fin N) :
    (∑ n : (⟨1, ![A]⟩ : Shape).Idx, if d.resultIdx? n idx = some (ix1 v) then u n else 0)
      = ∑ a : Fin A, if (idx (ix2 a (0 : Fin 1))).toInt = (v : ℤ) then u (ix1 a) else 0 := by
  rw [sum_idx1]
  simp only [scatter_vec_resultIdx d huw hiw hsd hivd]

/-- THE ROW SCATTER THAT ADDS, in a commutative monoid: at (v, f), what was there plus the sum over the positions
    whose index, read signed, is v of the update's column f. -/
theorem scatter_add_rows {M : Type} [AddCommMonoid M] {N D A w : ℕ}
    (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (x : (⟨2, ![N, D]⟩ : Shape).Idx → M) (idx : IVec ⟨2, ![A, 1]⟩ w)
    (u : (⟨2, ![A, D]⟩ : Shape).Idx → M) (v : Fin N) (f : Fin D) :
    Host.scatter d (fun p q => p + q) x idx u (ix2 v f)
      = x (ix2 v f) + ∑ a : Fin A, if (idx (ix2 a (0 : Fin 1))).toInt = (v : ℤ) then u (ix2 a f) else 0 := by
  rw [Host.scatter_add_apply, sum_rows_landing d huw hiw hsd hivd]

/-- THE ENTRY SCATTER THAT ADDS, in a commutative monoid: at v, what was there plus the sum of the updates whose
    index, read signed, is v. -/
theorem scatter_add_vec {M : Type} [AddCommMonoid M] {N A w : ℕ}
    (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : (⟨1, ![N]⟩ : Shape).Idx → M) (idx : IVec ⟨2, ![A, 1]⟩ w)
    (u : (⟨1, ![A]⟩ : Shape).Idx → M) (v : Fin N) :
    Host.scatter d (fun p q => p + q) x idx u (ix1 v)
      = x (ix1 v) + ∑ a : Fin A, if (idx (ix2 a (0 : Fin 1))).toInt = (v : ℤ) then u (ix1 a) else 0 := by
  rw [Host.scatter_add_apply, sum_vec_landing d huw hiw hsd hivd]

/-- The entry scatter whose body is the addition of machine words. -/
theorem scatter_addi_vec {N A w k : ℕ} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : IVec ⟨1, ![N]⟩ k) (idx : IVec ⟨2, ![A, 1]⟩ w) (u : IVec ⟨1, ![A]⟩ k)
    (v : Fin N) :
    Host.scatter d IntOp.addi x idx u (ix1 v)
      = x (ix1 v) + ∑ a : Fin A, if (idx (ix2 a (0 : Fin 1))).toInt = (v : ℤ) then u (ix1 a) else 0 :=
  scatter_add_vec d huw hiw hsd hivd x idx u v

/-- THE ROW SCATTER THAT ADDS, on the extended reals: at (v, f), what was there plus the sum over the positions
    whose index, read signed, is v of the update's column f. -/
theorem scatterAdd_rows {N D A w : ℕ} {φ : FTy} (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (x : FVec Ideal ⟨2, ![N, D]⟩ φ) (idx : IVec ⟨2, ![A, 1]⟩ w)
    (u : FVec Ideal ⟨2, ![A, D]⟩ φ) (v : Fin N) (f : Fin D) :
    Host.scatterAdd d x idx u (ix2 v f)
      = x (ix2 v f) + ∑ a : Fin A, if (idx (ix2 a (0 : Fin 1))).toInt = (v : ℤ) then u (ix2 a f) else 0 := by
  show Ideal.hostScatterAdd d x idx u (ix2 v f) = _
  unfold Ideal.hostScatterAdd
  rw [Finset.sum_filter]
  exact congrArg (x (ix2 v f) + ·) (sum_rows_landing d huw hiw hsd hivd idx u v f)

/-- THE ENTRY SCATTER THAT ADDS, on the extended reals: at v, what was there plus the sum of the updates whose
    index, read signed, is v. -/
theorem scatterAdd_vec {N A w : ℕ} {φ : FTy} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![A, 1]⟩ w)
    (u : FVec Ideal ⟨1, ![A]⟩ φ) (v : Fin N) :
    Host.scatterAdd d x idx u (ix1 v)
      = x (ix1 v) + ∑ a : Fin A, if (idx (ix2 a (0 : Fin 1))).toInt = (v : ℤ) then u (ix1 a) else 0 := by
  show Ideal.hostScatterAdd d x idx u (ix1 v) = _
  unfold Ideal.hostScatterAdd
  rw [Finset.sum_filter]
  exact congrArg (x (ix1 v) + ·) (sum_vec_landing d huw hiw hsd hivd idx u v)

/-! ## Index words -/

/-- The sum of a negative word and an extent below 2^31 does not wrap: read signed it is the signed sum. -/
theorem toInt_add_extent (n : ℕ) (hn : n < 2 ^ 31) (z : BitVec 32) (hz : z.toInt < 0) :
    (z + BitVec.ofNat 32 n).toInt = z.toInt + (n : ℤ) := by
  have hlo : -2 ^ 31 ≤ z.toInt := by
    have := BitVec.le_toInt z
    simpa using this
  have hnn : (BitVec.ofNat 32 n).toInt = (n : ℤ) := by
    rw [BitVec.toInt_ofNat']
    apply Int.bmod_eq_of_le_mul_two <;> omega
  rw [BitVec.toInt_add, hnn]
  apply Int.bmod_eq_of_le_mul_two <;> omega

/-- THE WRAPPED INDEX WORD. A negative index word moved up by the extent n (below 2^31), a non-negative one left
    alone, then read signed and clamped into [0, n - 1] as a gather does: the gather row of the word. -/
theorem wrap_word (n : ℕ) (hn : n < 2 ^ 31) (z : BitVec 32) :
    min (Scalar.select (IntOp.cmpi .slt z 0#32) (IntOp.addi z (BitVec.ofNat 32 n)) z).toInt.toNat (n - 1)
      = min (if z.toInt < 0 then z.toInt + n else z.toInt).toNat (n - 1) := by
  unfold Scalar.select IntOp.cmpi IntOp.addi
  have h0 : (0#32 : BitVec 32).toInt = 0 := by decide
  by_cases h : z.toInt < 0
  · have hs : z.slt 0#32 = true := by
      unfold BitVec.slt
      rw [h0]; exact decide_eq_true h
    simp only [hs, BitVec.ofBool_true, if_true, if_pos h]
    rw [toInt_add_extent n hn z h]
  · have hs : z.slt 0#32 = false := by
      unfold BitVec.slt
      rw [h0]; exact decide_eq_false h
    have h10 : ¬ ((0 : BitVec 1) = 1) := by decide
    simp only [hs, BitVec.ofBool_false, if_neg h10, if_neg h]

/-- The same, for the vector operations read at an index: the comparison against a table of zeros, the sum with a
    table of the extent, the selection. -/
theorem wrap_apply {s : Shape} (n : ℕ) (hn : n < 2 ^ 31) (x c m : IVec s 32) (i : s.Idx) (hc : c i = 0#32)
    (hm : m i = BitVec.ofNat 32 n) :
    min ((select (cmpi .slt x c) (addi x m) x) i).toInt.toNat (n - 1)
      = min (if (x i).toInt < 0 then (x i).toInt + n else (x i).toInt).toNat (n - 1) := by
  show min (Scalar.select (IntOp.cmpi .slt (x i) (c i)) (IntOp.addi (x i) (m i)) (x i)).toInt.toNat (n - 1) = _
  rw [hc, hm]
  exact wrap_word n hn (x i)

/-- A flat array laid out as an [A, 1] column reads, at row a, the array's entry a. -/
theorem column_apply {α : Type} {A : ℕ} (h : (⟨1, ![A]⟩ : Shape).BroadcastsInDim ⟨2, ![A, 1]⟩ ![0])
    (x : (⟨1, ![A]⟩ : Shape).Idx → α) (a : Fin A) (c : Fin 1) :
    broadcastInDim ⟨2, ![A, 1]⟩ ![0] h x (ix2 a c) = x (ix1 a) := by
  unfold broadcastInDim
  congr 1
  funext b
  match b with
  | ⟨0, _⟩ =>
    apply Fin.ext
    split
    · rename_i h1
      have h2 : A = 1 := h1
      have := a.isLt
      show 0 = a.val
      omega
    · rfl

/-! ## Two flat arrays laid end to end, and the array of positions -/

/-- Where a position falls in two runs laid end to end: below the first run's length, in the first run. -/
theorem locate_two_left (A B c : ℕ) (h : c < [A, B].sum) (hc : c < A) :
    locate [A, B] c h = ⟨⟨0, Nat.zero_lt_succ _⟩, ⟨c, hc⟩⟩ := by
  unfold locate
  rw [dif_pos hc]

/-- At or beyond the first run's length: in the second run, at the position less that length. -/
theorem locate_two_right (A B c : ℕ) (h : c < [A, B].sum) (hc : ¬ c < A) (hc2 : c - A < B) :
    locate [A, B] c h = ⟨⟨1, Nat.succ_lt_succ (Nat.zero_lt_succ _)⟩, ⟨c - A, hc2⟩⟩ := by
  have hr : locate [B] (c - A) (by simp only [List.sum_cons, List.sum_nil]; omega)
      = ⟨⟨0, Nat.zero_lt_succ _⟩, ⟨c - A, hc2⟩⟩ := by
    unfold locate
    rw [dif_pos hc2]
  unfold locate
  rw [dif_neg hc]
  show (⟨(locate [B] (c - A) _).1.succ, (locate [B] (c - A) _).2⟩ : (k : Fin [A, B].length) × Fin [A, B][k]) = _
  rw [hr]
  rfl

/-- The sizes of the pieces along the joined axis. -/
abbrev catSizes {α : Type} (t : Shape) (a : Fin t.rank) (xs : List ((s : Shape) × (s.Idx → α))) : List ℕ :=
  (xs.map (·.1)).map fun s => if h : s.rank = t.rank then s.size (a.cast h.symm) else 0

/-- The joined array at an index, from the piece the index falls in and the position within it. -/
def catAt {α : Type} (t : Shape) (a : Fin t.rank) (xs : List ((s : Shape) × (s.Idx → α)))
    (h : Shape.Concatenates (xs.map (·.1)) t a) (j : t.Idx)
    (kr : (k : Fin (catSizes t a xs).length) × Fin (catSizes t a xs)[k]) : α :=
  have hk : kr.1.val < xs.length := by simpa [catSizes] using kr.1.isLt
  let p := xs[kr.1.val]
  have hp : p.1 ∈ xs.map (·.1) := List.mem_map.2 ⟨p, List.getElem_mem hk, rfl⟩
  have hr : p.1.rank = t.rank := (h.2.1 p.1 hp).1
  p.2 fun b =>
    if hb : b.cast hr = a then
      kr.2.cast (by
        have : (catSizes t a xs)[kr.1.val] = if h : p.1.rank = t.rank then p.1.size (a.cast h.symm) else 0 := by
          simp [catSizes, p]
        rw [Fin.getElem_fin, this, dif_pos hr, ← hb]; rfl)
    else (j (b.cast hr)).cast ((h.2.1 p.1 hp).2 (b.cast hr) hb).symm

/-- The joined array at an index is read off the piece the index falls in. -/
theorem concatenate_eq_catAt {α : Type} (t : Shape) (a : Fin t.rank) (xs : List ((s : Shape) × (s.Idx → α)))
    (h : Shape.Concatenates (xs.map (·.1)) t a) (j : t.Idx) :
    concatenate t a xs h j
      = catAt t a xs h j (locate (catSizes t a xs) (j a).val (by rw [h.2.2]; exact (j a).isLt)) := rfl

/-- TWO FLAT ARRAYS LAID END TO END, read below the first one's length: the first array's entry. -/
theorem concatenate_two_left {α : Type} {A B C : ℕ} (h : Shape.Concatenates [⟨1, ![A]⟩, ⟨1, ![B]⟩] ⟨1, ![C]⟩ 0)
    (x : (⟨1, ![A]⟩ : Shape).Idx → α) (y : (⟨1, ![B]⟩ : Shape).Idx → α) (e : Fin C) (he : e.val < A) :
    concatenate ⟨1, ![C]⟩ 0 [⟨⟨1, ![A]⟩, x⟩, ⟨⟨1, ![B]⟩, y⟩] h (ix1 e) = x (ix1 ⟨e.val, he⟩) := by
  have hsum : e.val < [A, B].sum := by
    have h3 : A + (B + 0) = C := h.2.2
    simp only [List.sum_cons, List.sum_nil]
    have := e.isLt
    omega
  have hl : locate (catSizes ⟨1, ![C]⟩ 0 [⟨⟨1, ![A]⟩, x⟩, ⟨⟨1, ![B]⟩, y⟩]) ((ix1 e) 0).val
      hsum = ⟨⟨0, Nat.zero_lt_succ _⟩, ⟨e.val, he⟩⟩ :=
    locate_two_left A B e.val hsum he
  rw [concatenate_eq_catAt, hl]
  unfold catAt
  show x _ = x _
  congr 1
  funext b
  match b with
  | ⟨0, _⟩ =>
    split
    · rfl
    · rename_i hb
      exact absurd (Fin.ext rfl) hb

/-- Read at the first one's length plus k: the second array's entry k. -/
theorem concatenate_two_right {α : Type} {A B C : ℕ} (h : Shape.Concatenates [⟨1, ![A]⟩, ⟨1, ![B]⟩] ⟨1, ![C]⟩ 0)
    (x : (⟨1, ![A]⟩ : Shape).Idx → α) (y : (⟨1, ![B]⟩ : Shape).Idx → α) (k : Fin B) (hk : A + k.val < C) :
    concatenate ⟨1, ![C]⟩ 0 [⟨⟨1, ![A]⟩, x⟩, ⟨⟨1, ![B]⟩, y⟩] h (ix1 ⟨A + k.val, hk⟩) = y (ix1 k) := by
  have hsum : A + k.val < [A, B].sum := by
    simp only [List.sum_cons, List.sum_nil]
    have := k.isLt
    omega
  have hc2 : A + k.val - A < B := by have := k.isLt; omega
  have hl : locate (catSizes ⟨1, ![C]⟩ 0 [⟨⟨1, ![A]⟩, x⟩, ⟨⟨1, ![B]⟩, y⟩]) ((ix1 (⟨A + k.val, hk⟩ : Fin C)) 0).val
      hsum
      = ⟨⟨1, Nat.succ_lt_succ (Nat.zero_lt_succ _)⟩, ⟨A + k.val - A, hc2⟩⟩ :=
    locate_two_right A B (A + k.val) hsum (by omega) hc2
  rw [concatenate_eq_catAt, hl]
  unfold catAt
  show y _ = y _
  congr 1
  funext b
  match b with
  | ⟨0, _⟩ =>
    split
    · apply Fin.ext
      show A + k.val - A = k.val
      omega
    · rename_i hb
      exact absurd (Fin.ext rfl) hb

/-- The array of positions: entry k is the number k as a word. -/
theorem iota_apply {n w : ℕ} (k : Fin n) : iotaInDim ⟨1, ![n]⟩ w 0 (ix1 k) = BitVec.ofNat w k.val := rfl

end GCN.Ops

end
-- ==== Proof.GcnLaw.lean ====
/-
  The algebra behind a symmetrically normalised neighbourhood sum, over the extended reals.

  Each node v carries a weight w v, and an edge e from s e to v contributes  h (s e) · w (s e) · w v  to node v.
  One program sums  h (s e) · w (s e)  over the edges into v and multiplies the sum by w v afterwards; the other
  multiplies every summand by  w (s e) · w v  first. The two agree because w v moves inside the sum: the extended
  reals are not a semiring (⊤ - ⊤ has no good value), but multiplication by a factor that is nonnegative and not +∞
  does distribute over any sum, whatever the summands. The weight is the reciprocal square root of a degree where the
  degree is positive and zero elsewhere, which is such a factor for every extended real degree.
-/
import Idealize.ShloMosaic.PureOps.Ideal
import Idealize.ShloMosaic.Lib.ValueIdx
import Mathlib.Data.EReal.Operations

noncomputable section

namespace GCN.Law

open Idealize.ShloMosaic
open scoped BigOperators

/-- A factor that is nonnegative and not +∞ moves inside a finite sum of extended reals. -/
theorem mul_sum {ι : Type} (s : Finset ι) (a : EReal) (h0 : 0 ≤ a) (ht : a ≠ ⊤) (f : ι → EReal) :
    a * ∑ i ∈ s, f i = ∑ i ∈ s, a * f i := by
  classical
  refine Finset.induction_on s ?_ ?_
  · simp
  · intro i s hi ih
    rw [Finset.sum_insert hi, Finset.sum_insert hi, EReal.left_distrib_of_nonneg_of_ne_top h0 ht, ih]

/-- A node's weight from its degree: the reciprocal square root where the degree is positive, zero elsewhere. -/
def weight (y : EReal) : EReal := Scalar.select (Ideal.cmp .ogt y 0) (Ideal.rsqrt y) 0

/-- The weight is nonnegative and never +∞, for EVERY extended real degree: a positive real has a positive real
    reciprocal root, +∞ has reciprocal root 0, and anything that is not positive gets weight 0. -/
theorem weight_spec (y : EReal) : 0 ≤ weight y ∧ weight y ≠ ⊤ := by
  unfold weight
  by_cases h : (0 : EReal) < y
  · have hc : Ideal.cmp .ogt y 0 = 1#1 := by
      show BitVec.ofBool (decide ((0 : EReal) < y)) = 1#1
      rw [decide_eq_true h]; rfl
    rw [hc, ValueIdx.select_one]
    induction y using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hc : Ideal.cmp .ogt y 0 = 0#1 := by
      show BitVec.ofBool (decide ((0 : EReal) < y)) = 0#1
      rw [decide_eq_false h]; rfl
    rw [hc, ValueIdx.select_zero]
    exact ⟨le_refl 0, EReal.zero_ne_top⟩

/-- ONE NODE. With dv the node's weight, P e "edge e ends at this node", h e the source's feature, ds e the
    source's weight and dd e the weight of the edge's end (which is dv wherever P e holds): weighting the sum
    afterwards is weighting every summand first. The accumulators start from z = 0 and b is added last on both
    sides. -/
theorem node_sum {E : ℕ} (dv : EReal) (h0 : 0 ≤ dv) (ht : dv ≠ ⊤) (P : Fin E → Prop) [DecidablePred P]
    (h ds dd : Fin E → EReal) (hdd : ∀ e, P e → dd e = dv) (z b : EReal) (hz : z = 0) :
    dv * (z + ∑ e, if P e then h e * ds e else 0) + b
      = (z + ∑ e, if P e then h e * (ds e * dd e) else 0) + b := by
  subst hz
  rw [zero_add, zero_add, mul_sum _ _ h0 ht]
  congr 1
  refine Finset.sum_congr rfl fun e _ => ?_
  by_cases he : P e
  · rw [if_pos he, if_pos he, hdd e he, mul_comm dv, mul_assoc]
  · rw [if_neg he, if_neg he, mul_zero]

end GCN.Law

end
-- ==== Proof.GcnBridge.lean ====
/-
  The two ways of aggregating over edges, as the host operations that compute them, are one function.

  N = 100000 nodes, E = 1700000 edges (self loops included), C = 128 features. s and d are the edges' source and
  destination words, w the node weights, h the projected features and hs the same rows pre-scaled by the source's
  weight, hs (r, j) = h (r, j) · w r.

  First arrangement: gather the rows of hs at the sources, add them up per destination, scale row v by w v, add the bias.
  Second arrangement: gather the rows of h at the sources, scale edge e's row by  w (source e) · w (destination e),  add
  up per destination, add the bias.

  A gather reads the row its index word names after jnp's wrap of a negative word, read signed and clamped into the
  table; the adding scatter sends edge e's row to the node its word names, read signed and NOT clamped, and drops the
  edge if that is no node. So an edge that lands at node v has destination word exactly v, whose gather row is v: the
  edge's second weight IS w v, and the rest is moving w v inside the sum.
-/
import Idealize.ShloMosaic.PureOps.Ideal.Laws
import Idealize.ShloMosaic.Lib.Pipeline.Value
import proofs.«400812_j30133490549252_3_alg».proof.Proof.LibIndexOps
import proofs.«400812_j30133490549252_3_alg».proof.Proof.GcnLaw

noncomputable section

namespace GCN.Bridge

open Idealize.ShloMosaic Idealize.ShloMosaic.ValueIdx
open scoped BigOperators

abbrev S0 : Shape := ⟨0, ![]⟩
abbrev SN : Shape := ⟨1, ![100000]⟩
abbrev SE : Shape := ⟨1, ![1700000]⟩
abbrev SN1 : Shape := ⟨2, ![100000, 1]⟩
abbrev SE1 : Shape := ⟨2, ![1700000, 1]⟩
abbrev SNC : Shape := ⟨2, ![100000, 128]⟩
abbrev SEC : Shape := ⟨2, ![1700000, 128]⟩

/-- An [A, 1] column laid out over D columns reads, at (a, f), the column's entry a. -/
theorem rows_apply {α : Type} {A D : ℕ} (h : (⟨2, ![A, 1]⟩ : Shape).BroadcastsInDim ⟨2, ![A, D]⟩ ![0, 1])
    (x : (⟨2, ![A, 1]⟩ : Shape).Idx → α) (a : Fin A) (f : Fin D) :
    broadcastInDim ⟨2, ![A, D]⟩ ![0, 1] h x (ix2 a f) = x (ix2 a (0 : Fin 1)) := by
  refine broadcastInDim_apply _ h x _ _ (fun b => ?_)
  match b with
  | ⟨0, _⟩ =>
    show a.val = if A = 1 then 0 else a.val
    have := a.isLt
    split <;> omega
  | ⟨1, _⟩ =>
    show (0 : ℕ) = if (1 : ℕ) = 1 then 0 else f.val
    rw [if_pos rfl]

section
variable (hbE : SE.BroadcastsInDim SE1 ![0]) (hb0E : S0.BroadcastsInDim SE ![])

/-- jnp's wrap of an index word: a negative word is moved up by the node count. -/
abbrev wrapW (x : IVec SE 32) : IVec SE 32 :=
  select (cmpi .slt x (broadcastInDim SE ![] hb0E (constantI S0 32 0#32)))
    (addi x (broadcastInDim SE ![] hb0E (constantI S0 32 100000#32))) x

/-- The edge words as the [E, 1] column a gather or scatter takes. -/
abbrev col {α : Type} (x : SE.Idx → α) : SE1.Idx → α := broadcastInDim SE1 ![0] hbE x

/-- The gather row of a wrapped word whose signed value is the node number v is v. -/
theorem row_of_landing (x : IVec SE 32) (e : Fin 1700000) (v : Fin 100000) (he : (x (ix1 e)).toInt = (v : ℤ)) :
    min ((wrapW hb0E x) (ix1 e)).toInt.toNat (100000 - 1) = v.val := by
  have hw := GCN.Ops.wrap_apply 100000 (by norm_num) x (broadcastInDim SE ![] hb0E (constantI S0 32 0#32))
    (broadcastInDim SE ![] hb0E (constantI S0 32 100000#32)) (ix1 e) rfl rfl
  rw [hw, he]
  have := v.isLt
  have hv : ¬ ((v.val : ℤ) < 0) := by omega
  rw [if_neg hv]
  simp only [Int.toNat_natCast]
  omega
end

section Arrangements
variable {F : FTy → Type} [FloatOps F]

/-- FIRST ARRANGEMENT: gather the rows of hs at the sources, add them up per destination into zeros, scale row v by
    w v, add the bias. -/
def sumThenScale (sd : ScatterDims SNC SE1 SEC) (gdR : GatherDims SNC SE1 SEC)
    (hbE : SE.BroadcastsInDim SE1 ![0]) (hb0E : S0.BroadcastsInDim SE ![]) (hb0NC : S0.BroadcastsInDim SNC ![])
    (hbN : SN.BroadcastsInDim SN1 ![0]) (hbN1 : SN1.BroadcastsInDim SNC ![0, 1])
    (s d : IVec SE 32) (w : FVec F SN .f32) (hs : FVec F SNC .f32) (bias : FVec F SNC .f32) : FVec F SNC .f32 :=
  addf (mulf (broadcastInDim SNC ![0, 1] hbN1 (broadcastInDim SN1 ![0] hbN w))
      (Host.scatterAdd sd (broadcastInDim SNC ![] hb0NC (constant (F := F) S0 .f32 0x00000000#32)) (col hbE d)
        (Host.gather gdR hs (col hbE (wrapW hb0E s))))) bias

/-- SECOND ARRANGEMENT: gather the rows of h at the sources, scale edge e's row by the product of its two ends'
    weights, add up per destination into zeros, add the bias. -/
def scaleThenSum (sd : ScatterDims SNC SE1 SEC) (gdR : GatherDims SNC SE1 SEC) (gdV : GatherDims SN SE1 SE)
    (hbE : SE.BroadcastsInDim SE1 ![0]) (hb0E : S0.BroadcastsInDim SE ![]) (hb0NC : S0.BroadcastsInDim SNC ![])
    (hbE1 : SE1.BroadcastsInDim SEC ![0, 1])
    (s d : IVec SE 32) (w : FVec F SN .f32) (h : FVec F SNC .f32) (bias : FVec F SNC .f32) : FVec F SNC .f32 :=
  addf (Host.scatterAdd sd (broadcastInDim SNC ![] hb0NC (constant (F := F) S0 .f32 0x00000000#32)) (col hbE d)
      (mulf (Host.gather gdR h (col hbE (wrapW hb0E s)))
        (broadcastInDim SEC ![0, 1] hbE1 (broadcastInDim SE1 ![0] hbE
          (mulf (Host.gather gdV w (col hbE (wrapW hb0E s))) (Host.gather gdV w (col hbE (wrapW hb0E d)))))))) bias

end Arrangements

/-- THE TWO ARRANGEMENTS AGREE on the extended reals, for weights that are nonnegative and never +∞ and rows hs that
    are the rows of h scaled by their node's weight. -/
theorem bridge
    (sd : ScatterDims SNC SE1 SEC) (hs1 : sd.updateWindowDims = [1]) (hs2 : sd.insertedWindowDims = [0])
    (hs3 : sd.scatterDimsToOperandDims = [0]) (hs4 : sd.indexVectorDim = 1)
    (gdR : GatherDims SNC SE1 SEC) (hr1 : gdR.offsetDims = [1]) (hr2 : gdR.collapsedSliceDims = [0])
    (hr3 : gdR.operandBatchingDims = []) (hr4 : gdR.startIndicesBatchingDims = []) (hr5 : gdR.startIndexMap = [0])
    (hr6 : gdR.indexVectorDim = 1)
    (gdV : GatherDims SN SE1 SE) (hv1 : gdV.offsetDims = []) (hv2 : gdV.collapsedSliceDims = [0])
    (hv3 : gdV.operandBatchingDims = []) (hv4 : gdV.startIndicesBatchingDims = []) (hv5 : gdV.startIndexMap = [0])
    (hv6 : gdV.indexVectorDim = 1)
    (hbE : SE.BroadcastsInDim SE1 ![0]) (hb0E : S0.BroadcastsInDim SE ![]) (hb0NC : S0.BroadcastsInDim SNC ![])
    (hbN : SN.BroadcastsInDim SN1 ![0]) (hbN1 : SN1.BroadcastsInDim SNC ![0, 1]) (hbE1 : SE1.BroadcastsInDim SEC ![0, 1])
    (s d : IVec SE 32) (w : FVec Ideal SN .f32) (hw : ∀ v : Fin 100000, 0 ≤ w (ix1 v) ∧ w (ix1 v) ≠ ⊤)
    (h hs : FVec Ideal SNC .f32) (hhs : ∀ (r : Fin 100000) (j : Fin 128), hs (ix2 r j) = h (ix2 r j) * w (ix1 r))
    (bias : FVec Ideal SNC .f32) :
    sumThenScale (F := Ideal) sd gdR hbE hb0E hb0NC hbN hbN1 s d w hs bias
      = scaleThenSum (F := Ideal) sd gdR gdV hbE hb0E hb0NC hbE1 s d w h bias := by
  unfold sumThenScale scaleThenSum
  funext i
  obtain ⟨v, j, rfl⟩ : ∃ (v : Fin 100000) (j : Fin 128), i = ix2 v j := ⟨i 0, i 1, eq_ix2 i⟩
  rw [addf_apply, addf_apply, mulf_apply, rows_apply, GCN.Ops.column_apply,
    GCN.Ops.scatterAdd_rows sd hs1 hs2 hs3 hs4, GCN.Ops.scatterAdd_rows sd hs1 hs2 hs3 hs4]
  have hz : (broadcastInDim SNC ![] hb0NC (constant (F := Ideal) S0 .f32 0x00000000#32)) (ix2 v j) = 0 :=
    Ideal.ofBits_zero_f32
  simp only [GCN.Ops.column_apply, GCN.Ops.gather_rows gdR hr1 hr2 hr3 hr4 hr5 hr6 _ _ _ _ (by norm_num : 0 < 100000),
    GCN.Ops.gather_vec gdV hv1 hv2 hv3 hv4 hv5 hv6 _ _ _ (by norm_num : 0 < 100000), mulf_apply, rows_apply, hhs]
  simp only [rows_apply (A := 1700000) (D := 128) hbE1, GCN.Ops.column_apply (A := 1700000) hbE, mulf_apply,
    GCN.Ops.gather_vec gdV hv1 hv2 hv3 hv4 hv5 hv6 _ _ _ (by norm_num : 0 < 100000)]
  refine GCN.Law.node_sum _ (hw v).1 (hw v).2 _ _ _ _ ?_ _ _ hz
  intro e he
  exact congrArg (fun r => w (ix1 r)) (Fin.ext (row_of_landing hb0E d e v he))

end GCN.Bridge

end
-- ==== Proof.Equiv.lean ====
/-
  The kernel's result and the reference's result are one function of the four inputs, on the extended reals.

  Both programs build the same edge words, degrees and node weights from the edge list, by the same operations.  The
  kernel's result is the first arrangement (sum the gathered pre-scaled rows per destination, then scale by the
  destination's weight) of the scaled rows of x · W; the reference's is the second arrangement (scale each gathered row
  of x · W by both ends' weights, then sum).  The scaled rows are the rows of the reference's own product x · W times
  the node weights (the region's matrix product into zeros and the host's contraction are the same sum over k, and the
  100000 x 1 column the region reads is the weights reshaped), and every weight is nonnegative and not +∞ whatever the
  degree, so the two arrangements agree.  No input needs to be finite for this.
-/
import proofs.«400812_j30133490549252_3_alg».proof.Proof.KernelHost
import proofs.«400812_j30133490549252_3_alg».proof.Proof.GcnBridge
import proofs.«400812_j30133490549252_3_alg».proof.Proof.RefRead
import proofs.«400812_j30133490549252_3_alg».proof.Proof.LibContract

set_option maxRecDepth 16384

noncomputable section

namespace Cert.Proof.Gcn

open Idealize.ShloMosaic Idealize.ShloMosaic.ValueIdx
open Cert.KernelIdeal.Host Cert.KernelIdeal.Rows
open scoped BigOperators

/-! ## The same stages in both programs (at any float family) -/

section Same
variable {F : FTy → Type} [FloatOps F]

theorem src_same (ei : IVec Cert.KernelIdeal.S2x1600000 32) :
    srcWords ei = Cert.ReferenceIdeal.ReadP.val_main_v3 (F := F) ei := rfl

theorem dst_same (ei : IVec Cert.KernelIdeal.S2x1600000 32) :
    dstWords ei = Cert.ReferenceIdeal.ReadP.val_main_v6 (F := F) ei := rfl

theorem weights_same (ei : IVec Cert.KernelIdeal.S2x1600000 32) :
    weights (F := F) ei = Cert.ReferenceIdeal.ReadP.val_main_v14 (F := F) ei := rfl

/-- The kernel program's tail is the first arrangement, -/
theorem aggregate_eq (hs : FVec F Cert.KernelIdeal.S100000x128 .f32) (s d : IVec Cert.KernelIdeal.S1700000 32)
    (w : FVec F Cert.KernelIdeal.S100000 .f32) (b : FVec F Cert.KernelIdeal.S128 .f32) :
    aggregate (F := F) hs s d w b
      = GCN.Bridge.sumThenScale (F := F) Cert.ReferenceIdeal.scatter_S100000x128_S1700000x1_S1700000x128_1_0_0_1
          Cert.ReferenceIdeal.gather_S100000x128_S1700000x1_S1700000x128_1_0_n_n_0_1_1128
          Cert.ReferenceIdeal.Facts₀.bcast_S1700000_S1700000x1_0 Cert.ReferenceIdeal.Facts₀.bcast_S_S1700000
          Cert.ReferenceIdeal.Facts₀.bcast_S_S100000x128 Cert.KernelIdeal.Facts₀.bcast_S100000_S100000x1_0
          Cert.KernelIdeal.Facts₀.bcast_S100000x1_S100000x128_0_1 s d w hs
          (Cert.ReferenceIdeal.ReadP.val_main_v45 (F := F) b) := rfl

/-- and the reference's result is the second arrangement of its own stages. -/
theorem reference_eq (x : FVec F Cert.KernelIdeal.S100000x256 .f32) (ei : IVec Cert.KernelIdeal.S2x1600000 32)
    (W : FVec F Cert.KernelIdeal.S256x128 .f32) (b : FVec F Cert.KernelIdeal.S128 .f32) :
    Cert.ReferenceIdeal.ReadP.val_main_v46 (F := F) x ei W b
      = GCN.Bridge.scaleThenSum (F := F) Cert.ReferenceIdeal.scatter_S100000x128_S1700000x1_S1700000x128_1_0_0_1
          Cert.ReferenceIdeal.gather_S100000x128_S1700000x1_S1700000x128_1_0_n_n_0_1_1128
          Cert.ReferenceIdeal.gather_S100000_S1700000x1_S1700000_n_0_n_n_0_1_1
          Cert.ReferenceIdeal.Facts₀.bcast_S1700000_S1700000x1_0 Cert.ReferenceIdeal.Facts₀.bcast_S_S1700000
          Cert.ReferenceIdeal.Facts₀.bcast_S_S100000x128 Cert.ReferenceIdeal.Facts₀.bcast_S1700000x1_S1700000x128_0_1
          (Cert.ReferenceIdeal.ReadP.val_main_v3 (F := F) ei) (Cert.ReferenceIdeal.ReadP.val_main_v6 (F := F) ei)
          (Cert.ReferenceIdeal.ReadP.val_main_v14 (F := F) ei) (Cert.ReferenceIdeal.ReadP.val_main_v30 (F := F) x W)
          (Cert.ReferenceIdeal.ReadP.val_main_v45 (F := F) b) := rfl

end Same

/-! ## On the extended reals -/

/-- A node's weight, read at an index, is the weight of its degree. -/
theorem weight_apply {s : Shape} (hb : (⟨0, ![]⟩ : Shape).BroadcastsInDim s ![]) (deg : FVec Ideal s .f32) (i : s.Idx) :
    select (cmpf .ogt deg (broadcastInDim s ![] hb (constant (F := Ideal) ⟨0, ![]⟩ .f32 0x00000000#32))) (Host.rsqrt deg)
      (broadcastInDim s ![] hb (id (constant (F := Ideal) ⟨0, ![]⟩ .f32 0x00000000#32))) i = GCN.Law.weight (deg i) := by
  show Scalar.select (Ideal.cmp .ogt (deg i) (Ideal.ofBits .f32 0x00000000#32)) (Ideal.rsqrt (deg i))
    (Ideal.ofBits .f32 0x00000000#32) = _
  rw [Ideal.ofBits_zero_f32]
  rfl

/-- A flat array reshaped to an [N, 1] column reads, at row r, the array's entry r. -/
theorem column_of_vector {α : Type} {N : ℕ} (h : (⟨1, ![N]⟩ : Shape).ShapeCasts ⟨2, ![N, 1]⟩)
    (x : (⟨1, ![N]⟩ : Shape).Idx → α) (r : Fin N) :
    shapeCast ⟨2, ![N, 1]⟩ x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

variable (x : FVec Ideal Cert.KernelIdeal.S100000x256 .f32) (ei : IVec Cert.KernelIdeal.S2x1600000 32)
  (W : FVec Ideal Cert.KernelIdeal.S256x128 .f32) (b : FVec Ideal Cert.KernelIdeal.S128 .f32)

/-- Every node weight is nonnegative and not +∞. -/
theorem weights_spec (v : Fin 100000) :
    0 ≤ weights (F := Ideal) ei (ix1 v) ∧ weights (F := Ideal) ei (ix1 v) ≠ ⊤ := by
  have h : weights (F := Ideal) ei (ix1 v) = GCN.Law.weight (degrees (F := Ideal) ei (ix1 v)) :=
    weight_apply Cert.KernelIdeal.Facts₀.bcast_S_S100000 (degrees (F := Ideal) ei) (ix1 v)
  rw [h]
  exact GCN.Law.weight_spec _

/-- The region's output rows are the rows of the reference's product x · W times the node weights. -/
theorem scaledRows_eq (r : Fin 100000) (j : Fin 128) :
    scaledRows x W (weightCol (F := Ideal) ei) (ix2 r j)
      = Cert.ReferenceIdeal.ReadP.val_main_v30 (F := Ideal) x W (ix2 r j) * weights (F := Ideal) ei (ix1 r) := by
  rw [scaledRows_apply]
  refine congrArg₂ (· * ·) ?_ ?_
  · exact (Cert.LibContract.dotGeneral_plain Cert.ReferenceIdeal.dot_S100000x256_S256x128_S100000x128_1_0_0_1_n_n
      rfl rfl rfl rfl rfl rfl none x W r j).symm
  · exact column_of_vector Cert.KernelIdeal.Facts₀.shapeCasts_S100000_S100000x1 (weights (F := Ideal) ei) r

/-- THE TWO RESULTS ARE ONE FUNCTION of the features, the edge list, the weight matrix and the bias. -/
theorem kernel_eq_reference :
    aggregate (F := Ideal) (scaledRows x W (weightCol (F := Ideal) ei)) (srcWords ei) (dstWords ei)
        (weights (F := Ideal) ei) b
      = Cert.ReferenceIdeal.ReadP.val_main_v46 (F := Ideal) x ei W b := by
  rw [aggregate_eq, reference_eq, ← src_same, ← dst_same, ← weights_same]
  exact GCN.Bridge.bridge _ rfl rfl rfl rfl _ rfl rfl rfl rfl rfl rfl _ rfl rfl rfl rfl rfl rfl _ _ _ _ _ _
    (srcWords ei) (dstWords ei) (weights (F := Ideal) ei) (weights_spec ei)
    (Cert.ReferenceIdeal.ReadP.val_main_v30 (F := Ideal) x W) (scaledRows x W (weightCol (F := Ideal) ei))
    (scaledRows_eq x ei W) _

end Cert.Proof.Gcn

end
-- ==== Proof.lean ====
/-
  A graph-convolution layer,  out = D^{-1/2} (A + I) D^{-1/2} (x · W) + b,  over 100000 nodes and 1600000 edges.

  Both programs append a self loop to every node, count each node's degree by adding a one for every edge that ends at
  it, and weigh node v by w v = 1 / √(deg v) where the degree is positive and by 0 elsewhere.  The kernel's region
  computes the rows of x · W already scaled by the source weight, hs (r, ·) = (x · W) (r, ·) · w r; the host lines after
  it gather hs at the edges' sources, add the gathered rows up per destination, scale row v by w v and add the bias.
  The reference gathers the rows of x · W at the sources, scales edge e's row by w (source e) · w (destination e), adds
  up per destination and adds the bias.

  On the extended reals the two results are equal index by index (Proof/Equiv.lean): an edge the sum keeps at node v
  has destination word exactly v, so its second weight is w v, and w v moves inside the sum because it is nonnegative
  and never +∞, for every value the degree can take (Proof/GcnLaw.lean).  Nothing in the argument needs the inputs to
  be finite.  What the region leaves in its output array is read off its generated frame, block by block
  (Proof/KernelGrid.lean, KernelBlock.lean, KernelArray.lean), the host lines around it as values
  (Proof/KernelHost.lean, KernelRun.lean), the reference through its run and its stages (Proof/RefRun.lean,
  RefRead.lean).  The ideal pass rewrote nothing, so the kernel's idealization is its own text read at the extended
  reals.
-/
import proofs.«400812_j30133490549252_3_alg».proof.Defs
import proofs.«400812_j30133490549252_3_alg».proof.Proof.Gen.Kernel
import proofs.«400812_j30133490549252_3_alg».proof.Proof.Gen.Kernel.Skeleton
import proofs.«400812_j30133490549252_3_alg».proof.Proof.Gen.Kernel.Launch
import proofs.«400812_j30133490549252_3_alg».proof.Proof.Gen.Kernel.Points
import proofs.«400812_j30133490549252_3_alg».proof.Proof.Gen.Kernel.Frame
import proofs.«400812_j30133490549252_3_alg».proof.Proof.Gen.KernelIdeal
import proofs.«400812_j30133490549252_3_alg».proof.Proof.Gen.KernelIdeal.Skeleton
import proofs.«400812_j30133490549252_3_alg».proof.Proof.Gen.KernelIdeal.Launch
import proofs.«400812_j30133490549252_3_alg».proof.Proof.Gen.KernelIdeal.Points
import proofs.«400812_j30133490549252_3_alg».proof.Proof.Gen.KernelIdeal.Frame
import proofs.«400812_j30133490549252_3_alg».proof.Proof.Gen.ReferenceIdeal
import proofs.«400812_j30133490549252_3_alg».proof.Proof.Gen.Pre_finite_inputs
import proofs.«400812_j30133490549252_3_alg».proof.Proof.RefRun
import proofs.«400812_j30133490549252_3_alg».proof.Proof.RefRead
import proofs.«400812_j30133490549252_3_alg».proof.Proof.KernelRun
import proofs.«400812_j30133490549252_3_alg».proof.Proof.Equiv
import Idealize.ShloMosaic.Adequacy
import Idealize.ShloMosaic.Init

noncomputable section

namespace Cert.Proof

open Idealize.ShloMosaic Idealize.SL.Sem

/-- The kernel program as printed runs to the end and keeps its arguments (its generated frame). -/
theorem frame_k : Cert.frame_Kernel := fun m ρ _ => Cert.Kernel.Gen.frame m ρ

/-- So does the same text read at the extended reals. -/
theorem frame_ki : Cert.frame_KernelIdeal := fun m ρ _ => Cert.KernelIdeal.Gen.frame m ρ

/-- The reference runs to the end and keeps its arguments: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the four inputs both programs end with the same result array: the kernel's run ends
    at its result function of the inputs, the reference's run at the reference's last stage of the same inputs, and the
    two are one function. -/
theorem algebraic : Cert.algebraic_KernelIdeal_ReferenceIdeal := by
  intro m ρ m' ρ' _ hagree
  refine ⟨_, Cert.KernelIdeal.Host.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  exact (Cert.Proof.Gcn.kernel_eq_reference _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
